-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S25000x1 : Shape := ⟨2, ![25000, 1]⟩
abbrev S100000x1 : Shape := ⟨2, ![100000, 1]⟩
abbrev S128x128 : Shape := ⟨2, ![128, 128]⟩
abbrev S_ : Shape := ⟨0, ![]⟩
abbrev S128 : Shape := ⟨1, ![128]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S25000x1 : S_.BroadcastsInDim S25000x1 (![] : Fin 0 → Fin S25000x1.rank)
  reducesTo_S25000x1_S_d0_1 : S25000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  reducesTo_S_S_d : S_.ReducesTo [] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v31 : IVec S_ 1) (main_v32 : FVec F S128 .f32) (main_cst_12 : FVec F S_ .f32) : IVec S_ 1 :=
  let main_v33 : FVec F S128 .f32 := broadcastInDim S128 ![] bcast_S_S128 main_cst_12
  let main_v34 : IVec S128 1 := cmpf .olt main_v32 main_v33
  let main_c_13 : IVec S_ 1 := constantI S_ 1 1#1
  let main_v35 : IVec S_ 1 := (fun x v => Host.reduce IntOp.andi x v reducesTo_S128_S_d0 h_S_) main_v34 main_c_13
  let main_v36 : IVec S_ 1 := andi main_v31 main_v35
  let main_v37 : FVec F S128 .f32 := Host.absf main_arg8
  let main_cst_14 : FVec F S_ .f32 := constant S_ .f32 0x7F800000#32
  let main_v38 : FVec F S128 .f32 := broadcastInDim S128 ![] bcast_S_S128 main_cst_14
  let main_v39 : IVec S128 1 := cmpf .olt main_v37 main_v38
  let main_c_15 : IVec S_ 1 := constantI S_ 1 1#1
  let main_v40 : IVec S_ 1 := (fun x v => Host.reduce IntOp.andi x v reducesTo_S128_S_d0 h_S_) main_v39 main_c_15
  let main_v41 : IVec S_ 1 := andi main_v36 main_v40
  main_v41

def fn_part1 {F : FTy → Type} [FloatOps F] (main_arg4 : FVec F S128x128 .f32) (main_arg5 : FVec F S_ .f32) (main_arg6 : FVec F S_ .f32) (main_arg7 : FVec F S128 .f32) (main_arg8 : FVec F S128 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S_ .f32 := Host.absf main_arg6
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S128 .f32 := Host.absf main_arg7
  let main_cst_12 : FVec F S_ .f32 := constant S_ .f32 0x7F800000#32
  fn_part2 (F := F) main_arg8 main_v31 main_v32 main_cst_12

def fn {F : FTy → Type} [FloatOps F] (main_arg0 : FVec F S100000x128 .f32) (main_arg1 : FVec F S100000x128 .f32) (main_arg2 : FVec F S25000x1 .f32) (main_arg3 : FVec F S100000x1 .f32) (main_arg4 : FVec F S128x128 .f32) (main_arg5 : FVec F S_ .f32) (main_arg6 : FVec F S_ .f32) (main_arg7 : FVec F S128 .f32) (main_arg8 : FVec F S128 .f32) (main_arg9 : IVec S640000 32) (main_arg10 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S25000x1 .f32 := Host.absf main_arg2
  let main_cst_2 : FVec F S_ .f32 := constant S_ .f32 0x7F800000#32
  let main_v10 : FVec F S25000x1 .f32 := broadcastInDim S25000x1 ![] bcast_S_S25000x1 main_cst_2
  let main_v11 : IVec S25000x1 1 := cmpf .olt main_v9 main_v10
  let main_c_3 : IVec S_ 1 := constantI S_ 1 1#1
  let main_v12 : IVec S_ 1 := (fun x v => Host.reduce IntOp.andi x v reducesTo_S25000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S25000x1 : Shape := ⟨2, ![25000, 1]⟩
abbrev S100000x1 : Shape := ⟨2, ![100000, 1]⟩
abbrev S128x128 : Shape := ⟨2, ![128, 128]⟩
abbrev S_ : Shape := ⟨0, ![]⟩
abbrev S128 : Shape := ⟨1, ![128]⟩
abbrev S640000 : Shape := ⟨1, ![640000]⟩
abbrev S640000x1 : Shape := ⟨2, ![640000, 1]⟩
abbrev S640000x128 : Shape := ⟨2, ![640000, 128]⟩
abbrev S25000x128 : Shape := ⟨2, ![25000, 128]⟩
abbrev S1000x128 : Shape := ⟨2, ![1000, 128]⟩
abbrev S1000x1 : Shape := ⟨2, ![1000, 1]⟩
abbrev S1x128 : Shape := ⟨2, ![1, 128]⟩
abbrev S1x1 : Shape := ⟨2, ![1, 1]⟩
abbrev S2000x128 : Shape := ⟨2, ![2000, 128]⟩
abbrev S2000x1 : Shape := ⟨2, ![2000, 1]⟩
abbrev S2000 : Shape := ⟨1, ![2000]⟩

abbrev nBuf : Space → Nat
  | .hbm => 50
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S25000x1, .f32⟩
  | .hbm, ⟨3, _⟩ => ⟨S100000x1, .f32⟩
  | .hbm, ⟨4, _⟩ => ⟨S128x128, .f32⟩
  | .hbm, ⟨5, _⟩ => ⟨S_, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S25000x128, .f32⟩
  | .hbm, ⟨22, _⟩ => ⟨S640000x1, .i32⟩
  | .hbm, ⟨23, _⟩ => ⟨S25000x128, .f32⟩
  | .hbm, ⟨24, _⟩ => ⟨S_, .f32⟩
  | .hbm, ⟨25, _⟩ => ⟨S640000x1, .f32⟩
  | .hbm, ⟨26, _⟩ => ⟨S_, .f32⟩
  | .hbm, ⟨27, _⟩ => ⟨S25000x1, .f32⟩
  | .hbm, ⟨28, _⟩ => ⟨S640000x1, .i32⟩
  | .hbm, ⟨29, _⟩ => ⟨S25000x1, .f32⟩
  | .hbm, ⟨30, _⟩ => ⟨S25000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S_, .f32⟩
  | .hbm, ⟨41, _⟩ => ⟨S100000x128, .f32⟩
  | .hbm, ⟨42, _⟩ => ⟨S640000x1, .i32⟩
  | .hbm, ⟨43, _⟩ => ⟨S100000x128, .f32⟩
  | .hbm, ⟨44, _⟩ => ⟨S1x128, .f32⟩
  | .hbm, ⟨45, _⟩ => ⟨S1x128, .f32⟩
  | .hbm, ⟨46, _⟩ => ⟨S128x128, .f32⟩
  | .hbm, ⟨47, _⟩ => ⟨S1x1, .f32⟩
  | .hbm, ⟨48, _⟩ => ⟨S1x1, .f32⟩
  | .hbm, ⟨49, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x1, .f32⟩
  | .local _ .vmem, ⟨5, _⟩ => ⟨S1000x1, .f32⟩
  | .local _ .vmem, ⟨6, _⟩ => ⟨S1000x128, .f32⟩
  | .local _ .vmem, ⟨7, _⟩ => ⟨S1000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x1, .f32⟩
  | .local _ .vmem, ⟨18, _⟩ => ⟨S1x1, .f32⟩
  | .local _ .vmem, ⟨19, _⟩ => ⟨S2000x128, .f32⟩
  | .local _ .vmem, ⟨20, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S25000x128 : S_.BroadcastsInDim S25000x128 (![] : Fin 0 → Fin S25000x128.rank)
  bcast_S_S640000x1 : S_.BroadcastsInDim S640000x1 (![] : Fin 0 → Fin S640000x1.rank)
  bcast_S_S25000x1 : S_.BroadcastsInDim S25000x1 (![] : Fin 0 → Fin S25000x1.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1000x1_S1000x128 : S1000x1.Broadcasts S1000x128
  bcast_S_S100000x128 : S_.BroadcastsInDim S100000x128 (![] : Fin 0 → Fin S100000x128.rank)
  shapeCasts_S128_S1x128 : S128.ShapeCasts S1x128
  transposes_S128x128_S128x128_1_0 : S128x128.Transposes [1, 0] S128x128
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  reduces_S2000x128_S2000 : S2000x128.Reduces [1] S2000
  shapeCasts_S2000_S2000x1 : S2000.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S1x1_S2000x128 : S1x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S640000x1_S640000x128_1_0_n_n_0_1_1128_wf : GatherDims.WF S100000x128 S640000x1 S640000x128 [1] [0] [] [0] [] 1 ![1, 128]
  scatter_S25000x128_S640000x1_S640000x128_1_0_0_1_wf : ScatterDims.WF S25000x128 S640000x1 S640000x128 [1] [0] [0] 1
  scatter_S25000x1_S640000x1_S640000x1_1_0_0_1_wf : ScatterDims.WF S25000x1 S640000x1 S640000x1 [1] [0] [0] 1
  gather_S25000x128_S640000x1_S640000x128_1_0_n_n_0_1_1128_wf : GatherDims.WF S25000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S25000x1.size a
  hwx0_1 : ∀ i : grid0.Coords, EltTy.bits .f32 = 32 ∨ (Rect.block (s := S25000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S25000x1.size a
  hwx0_2 : ∀ i : grid0.Coords, EltTy.bits .f32 = 32 ∨ (Rect.block (s := S25000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S25000x128.size a
  hwx0_3 : ∀ i : grid0.Coords, EltTy.bits .f32 = 32 ∨ (Rect.block (s := S25000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S25000x128_S640000x1_S640000x128_1_0_0_1 : ScatterDims S25000x128 S640000x1 S640000x128 where
  updateWindowDims := [1]
  insertedWindowDims := [0]
  scatterDimsToOperandDims := [0]
  indexVectorDim := 1
  wf := scatter_S25000x128_S640000x1_S640000x128_1_0_0_1_wf
def scatter_S25000x1_S640000x1_S640000x1_1_0_0_1 : ScatterDims S25000x1 S640000x1 S640000x1 where
  updateWindowDims := [1]
  insertedWindowDims := [0]
  scatterDimsToOperandDims := [0]
  indexVectorDim := 1
  wf := scatter_S25000x1_S640000x1_S640000x1_1_0_0_1_wf
def gather_S25000x128_S640000x1_S640000x128_1_0_n_n_0_1_1128 : GatherDims S25000x128 S640000x1 S640000x128 where
  offsetDims := [1]
  collapsedSliceDims := [0]
  operandBatchingDims := []
  startIndicesBatchingDims := []
  startIndexMap := [0]
  indexVectorDim := 1
  sliceSizes := ![1, 128]
  wf := gather_S25000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S25000x1 : Shape := ⟨2, ![25000, 1]⟩
abbrev S100000x1 : Shape := ⟨2, ![100000, 1]⟩
abbrev S128x128 : Shape := ⟨2, ![128, 128]⟩
abbrev S_ : Shape := ⟨0, ![]⟩
abbrev S128 : Shape := ⟨1, ![128]⟩
abbrev S640000 : Shape := ⟨1, ![640000]⟩
abbrev S640000x1 : Shape := ⟨2, ![640000, 1]⟩
abbrev S640000x128 : Shape := ⟨2, ![640000, 128]⟩
abbrev S25000x128 : Shape := ⟨2, ![25000, 128]⟩
abbrev S100000 : Shape := ⟨1, ![100000]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S25000x1, .f32⟩
  | .hbm, ⟨3, _⟩ => ⟨S100000x1, .f32⟩
  | .hbm, ⟨4, _⟩ => ⟨S128x128, .f32⟩
  | .hbm, ⟨5, _⟩ => ⟨S_, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S25000x128, .f32⟩
  | .hbm, ⟨22, _⟩ => ⟨S640000x1, .i32⟩
  | .hbm, ⟨23, _⟩ => ⟨S25000x128, .f32⟩
  | .hbm, ⟨24, _⟩ => ⟨S_, .f32⟩
  | .hbm, ⟨25, _⟩ => ⟨S640000x1, .f32⟩
  | .hbm, ⟨26, _⟩ => ⟨S_, .f32⟩
  | .hbm, ⟨27, _⟩ => ⟨S25000x1, .f32⟩
  | .hbm, ⟨28, _⟩ => ⟨S640000x1, .i32⟩
  | .hbm, ⟨29, _⟩ => ⟨S25000x1, .f32⟩
  | .hbm, ⟨30, _⟩ => ⟨S_, .f32⟩
  | .hbm, ⟨31, _⟩ => ⟨S25000x1, .f32⟩
  | .hbm, ⟨32, _⟩ => ⟨S25000x1, .f32⟩
  | .hbm, ⟨33, _⟩ => ⟨S25000x128, .f32⟩
  | .hbm, ⟨34, _⟩ => ⟨S25000x128, .f32⟩
  | .hbm, ⟨35, _⟩ => ⟨S25000x128, .f32⟩
  | .hbm, ⟨36, _⟩ => ⟨S25000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S100000x128, .f32⟩
  | .hbm, ⟨48, _⟩ => ⟨S640000x1, .i32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x1, .f32⟩
  | .hbm, ⟨72, _⟩ => ⟨S100000x1, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S128x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S25000x128 : S_.BroadcastsInDim S25000x128 (![] : Fin 0 → Fin S25000x128.rank)
  bcast_S_S640000x1 : S_.BroadcastsInDim S640000x1 (![] : Fin 0 → Fin S640000x1.rank)
  bcast_S_S25000x1 : S_.BroadcastsInDim S25000x1 (![] : Fin 0 → Fin S25000x1.rank)
  bcast_S25000x1_S25000x128_0_1 : S25000x1.BroadcastsInDim S25000x128 (![0, 1] : Fin 2 → Fin S25000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  gather_S100000x128_S640000x1_S640000x128_1_0_n_n_0_1_1128_wf : GatherDims.WF S100000x128 S640000x1 S640000x128 [1] [0] [] [0] [] 1 ![1, 128]
  scatter_S25000x128_S640000x1_S640000x128_1_0_0_1_wf : ScatterDims.WF S25000x128 S640000x1 S640000x128 [1] [0] [0] 1
  scatter_S25000x1_S640000x1_S640000x1_1_0_0_1_wf : ScatterDims.WF S25000x1 S640000x1 S640000x1 [1] [0] [0] 1
  gather_S25000x128_S640000x1_S640000x128_1_0_n_n_0_1_1128_wf : GatherDims.WF S25000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S25000x128_S640000x1_S640000x128_1_0_0_1 : ScatterDims S25000x128 S640000x1 S640000x128 where
  updateWindowDims := [1]
  insertedWindowDims := [0]
  scatterDimsToOperandDims := [0]
  indexVectorDim := 1
  wf := scatter_S25000x128_S640000x1_S640000x128_1_0_0_1_wf
def scatter_S25000x1_S640000x1_S640000x1_1_0_0_1 : ScatterDims S25000x1 S640000x1 S640000x1 where
  updateWindowDims := [1]
  insertedWindowDims := [0]
  scatterDimsToOperandDims := [0]
  indexVectorDim := 1
  wf := scatter_S25000x1_S640000x1_S640000x1_1_0_0_1_wf
def gather_S25000x128_S640000x1_S640000x128_1_0_n_n_0_1_1128 : GatherDims S25000x128 S640000x1 S640000x128 where
  offsetDims := [1]
  collapsedSliceDims := [0]
  operandBatchingDims := []
  startIndicesBatchingDims := []
  startIndexMap := [0]
  indexVectorDim := 1
  sliceSizes := ![1, 128]
  wf := gather_S25000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The two dense stages of the hypergraph layer, each as one function of whole arrays over the extended reals.

  Edge stage: entry (e, j) of the edge features is the summed member features divided by the member count
  (at least one), times the edge's degree weight.

  Node stage, row r: the gathered sum scaled by the node's degree weight and doubled (the layer's residual is the
  row itself); a layer norm over the 128 features (mean and variance as sums divided by 128, the variance
  shifted by the epsilon word before the reciprocal square root), scaled and shifted feature by feature; a convex
  mix with the initial features by α; and a convex mix by β of that row with its product against the weight
  matrix, `w q k` being the weight from input feature `k` to output feature `q`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The word of 1.0. -/
abbrev one : EReal := Ideal.ofBits .f32 0x3F800000#32
/-- The word of 128.0, the number of features. -/
abbrev c128 : EReal := Ideal.ofBits .f32 0x43000000#32
/-- The layer norm's epsilon word. -/
abbrev eps : EReal := Ideal.ofBits .f32 0x3727C5AC#32

/-! ## The edge stage -/

/-- Entry (e, j): sum over count (at least one), times the degree weight. -/
def edgeAt (esum : (⟨2, ![25000, 128]⟩ : Shape).Idx → EReal) (ecnt degE : (⟨2, ![25000, 1]⟩ : Shape).Idx → EReal)
    (e : Fin 25000) (j : Fin 128) : EReal :=
  Ideal.div (esum (ix2 e j)) (max (ecnt (ix2 e 0)) one) * degE (ix2 e 0)

/-- The edge stage as a whole array. -/
def edge (esum : (⟨2, ![25000, 128]⟩ : Shape).Idx → EReal) (ecnt degE : (⟨2, ![25000, 1]⟩ : Shape).Idx → EReal) :
    (⟨2, ![25000, 128]⟩ : Shape).Idx → EReal :=
  fun i => edgeAt esum ecnt degE (i 0) (i 1)

theorem edge_ix2 (esum : (⟨2, ![25000, 128]⟩ : Shape).Idx → EReal) (ecnt degE : (⟨2, ![25000, 1]⟩ : Shape).Idx → EReal)
    (e : Fin 25000) (j : Fin 128) : edge esum ecnt degE (ix2 e j) = edgeAt esum ecnt degE e j := rfl

/-! ## The node stage -/

section Node

variable (xv : (⟨2, ![100000, 128]⟩ : Shape).Idx → EReal) (dv : (⟨2, ![100000, 1]⟩ : Shape).Idx → EReal)
  (x0 : (⟨2, ![100000, 128]⟩ : Shape).Idx → EReal) (lnw lnb : Fin 128 → EReal) (w : Fin 128 → Fin 128 → EReal)
  (α β : EReal)

/-- The degree-scaled row, doubled. -/
def xh (r : Fin 100000) (k : Fin 128) : EReal := xv (ix2 r k) * dv (ix2 r 0) + xv (ix2 r k) * dv (ix2 r 0)

/-- The row's mean. -/
def mean (r : Fin 100000) : EReal := Ideal.div (∑ k : Fin 128, xh xv dv r k) c128

/-- The row, centred. -/
def dif (r : Fin 100000) (k : Fin 128) : EReal := xh xv dv r k - mean xv dv r

/-- The row's variance. -/
def var (r : Fin 100000) : EReal := Ideal.div (∑ k : Fin 128, dif xv dv r k * dif xv dv r k) c128

/-- The normalized row, scaled and shifted, mixed with the initial features. -/
def xi (r : Fin 100000) (k : Fin 128) : EReal :=
  (one - α) * (dif xv dv r k * Ideal.rsqrt (var xv dv r + eps) * lnw k + lnb k) + α * x0 (ix2 r k)

/-- Entry (r, q) of the result. -/
def nodeAt (r : Fin 100000) (q : Fin 128) : EReal :=
  (one - β) * xi xv dv x0 lnw lnb α r q + β * ∑ k : Fin 128, xi xv dv x0 lnw lnb α r k * w q k

/-- The node stage as a whole array. -/
def node : (⟨2, ![100000, 128]⟩ : Shape).Idx → EReal := fun i => nodeAt xv dv x0 lnw lnb w α β (i 0) (i 1)

theorem node_ix2 (r : Fin 100000) (q : Fin 128) :
    node xv dv x0 lnw lnb w α β (ix2 r q) = nodeAt xv dv x0 lnw lnb w α β r q := rfl

end Node

/-- Two arrays of rank two that agree at every pair of coordinates are equal. -/
theorem ext_ix2 {α : Type} {n0 n1 : Nat} {f g : (⟨2, ![n0, n1]⟩ : Shape).Idx → α}
    (h : ∀ (p : Fin n0) (q : Fin n1), f (ix2 p q) = g (ix2 p q)) : f = g := by
  funext i
  rw [eq_ix2 i]
  exact h _ _

end Cert.Spec

end
-- ==== Proof.EdgeValue.lean ====
/-
  The edge-stage kernel's output array after its pipeline, for any contents the region is entered with: the
  edge stage of the arrays its windows read. Each of the 25 grid points handles 1000 consecutive edges: its
  three input blocks are rows 1000·t … 1000·t + 999 of the two scattered sums and of the degree weights, and
  its output block is the same rows of the result; the body divides each summed row by the member count (at
  least one) and multiplies by the degree weight, entry by entry.
-/
import proofs.«159754_j67688684585239_1_alg».proof.Proof.Gen.KernelIdeal.Frame
import proofs.«159754_j67688684585239_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeValue

open Cert.KernelIdeal Cert.KernelIdeal.Gen Idealize.ShloMosaic Idealize.ShloMosaic.TcCoe Idealize.ShloMosaic.ValueIdx
open Idealize.ShloMosaic.Pipeline (Dat)

theorem offsets_zero : (![0, 0] : Fin 2 → Nat) = fun _ => 0 := funext fun a => by fin_cases a <;> rfl

/-- A column spread along the 128 features reads the column's entry of the same row. -/
theorem col_spread (v : FVec Ideal S1000x1 .f32) (h : S1000x1.Broadcasts S1000x128) (p : Fin 1000) (q : Fin 128) :
    broadcastTo S1000x128 v h (ix2 p q) = v (ix2 p 0) :=
  broadcastTo_apply v h _ _ fun a => match a with
    | ⟨0, _⟩ => by show p.val = if (1000 : Nat) = 1 then 0 else p.val; rw [if_neg (by decide)]
    | ⟨1, _⟩ => by show (0 : Nat) = if (1 : Nat) = 1 then 0 else q.val; rw [if_pos rfl]

/-- What the body leaves in its output block, entry (p, q): the summed entry over the count (at least one) of
    row p, times the degree weight of row p. -/
theorem body_entry (x0 : Vec Ideal S1000x128 .f32) (x1 x2 : Vec Ideal S1000x1 .f32) (p : Fin 1000) (q : Fin 128) :
    out0_3 x0 x1 x2 (ix2 p q) = Ideal.div (x0 (ix2 p q)) (max (x1 (ix2 p 0)) Cert.Spec.one) * x2 (ix2 p 0) := by
  unfold out0_3
  rw [View.canon_unit_zero offsets_zero]
  simp only [View.ld_unit_zero (S := S1000x128) offsets_zero, View.ld_unit_zero (S := S1000x1) offsets_zero]
  unfold k0_pay1
  rw [ValueIdx.mulf_apply, ValueIdx.divf_apply, col_spread, col_spread, shapeCast_self, shapeCast_self]
  rfl

/-- The same at any index of the block. -/
theorem body_at (x0 : Vec Ideal S1000x128 .f32) (x1 x2 : Vec Ideal S1000x1 .f32) (y : S1000x128.Idx) :
    out0_3 x0 x1 x2 y = Ideal.div (x0 y) (max (x1 (ix2 (y 0) 0)) Cert.Spec.one) * x2 (ix2 (y 0) 0) := by
  obtain ⟨p, q, rfl⟩ : ∃ (p : Fin 1000) (q : Fin 128), y = ix2 p q := ⟨y 0, y 1, eq_ix2 y⟩
  exact body_entry x0 x1 x2 p q

/-- The printed index maps over the grid: every window's block index at point t is (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the edge stage of the arrays the region was entered with. -/
theorem flushed_eq (c : Dev nD) (t : Fin cfg0.N) :
    (dat0 (F := Ideal) V c).flushed 3 t
      = ((cfg0.win 3).blk t).view.read (Elt Ideal) (Cert.Spec.edge (V c main_v9) (V c main_v13) (V c main_arg2)) := by
  show (cfg0.win 3).cut (grid0.coords t) ((dat0 (F := Ideal) V c).after 3 t) = _
  rw [after0_3]
  obtain ⟨e00, e01, e10, e11, e20, e21, e30, e31⟩ := block_index t
  funext j
  show out0_3 (iblk0 V c 0 t) (iblk0 V c 1 t) (iblk0 V c 2 t) j
    = Cert.Spec.edge (V c main_v9) (V c main_v13) (V c main_arg2) (((cfg0.win 3).blk t).view.emb j)
  refine (body_at _ _ _ j).trans ?_
  have hE : iblk0 V c 0 t j = V c main_v9 (((cfg0.win 3).blk t).view.emb j) := by
    show V c main_v9 (((cfg0.win 0).blk t).view.emb j) = _
    refine congrArg (V c main_v9) (funext fun a => Fin.ext ?_)
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 128 + 1 * (j 1).val = win0_3.index t (1 : Fin 2) * 128 + 1 * (j 1).val; omega
  have hC : iblk0 V c 1 t (ix2 (j 0) 0) = V c main_v13 (ix2 ((((cfg0.win 3).blk t).view.emb j) 0) 0) := by
    show V c main_v13 (((cfg0.win 1).blk t).view.emb (ix2 (j 0) 0)) = _
    refine congrArg (V c main_v13) (funext fun a => Fin.ext ?_)
    match a with
    | ⟨0, _⟩ => show win0_1.index t (0 : Fin 2) * 1000 + 1 * (j 0).val = win0_3.index t (0 : Fin 2) * 1000 + 1 * (j 0).val; omega
    | ⟨1, _⟩ => show win0_1.index t (1 : Fin 2) * 1 + 1 * 0 = 0; omega
  have hD : iblk0 V c 2 t (ix2 (j 0) 0) = V c main_arg2 (ix2 ((((cfg0.win 3).blk t).view.emb j) 0) 0) := by
    show V c main_arg2 (((cfg0.win 2).blk t).view.emb (ix2 (j 0) 0)) = _
    refine congrArg (V c main_arg2) (funext fun a => Fin.ext ?_)
    match a with
    | ⟨0, _⟩ => show win0_2.index t (0 : Fin 2) * 1000 + 1 * (j 0).val = win0_3.index t (0 : Fin 2) * 1000 + 1 * (j 0).val; omega
    | ⟨1, _⟩ => show win0_2.index t (1 : Fin 2) * 1 + 1 * 0 = 0; omega
  rw [hE, hC, hD]
  exact congrArg (fun z => Ideal.div (V c main_v9 z) (max (V c main_v13 (ix2 ((((cfg0.win 3).blk t).view.emb j) 0) 0)) Cert.Spec.one)
    * V c main_arg2 (ix2 ((((cfg0.win 3).blk t).view.emb j) 0) 0)) (eq_ix2 (((cfg0.win 3).blk t).view.emb j))

/-- An index of the result is in point t's block iff each coordinate is in the block's range on its axis. -/
theorem mem_block (t : Fin cfg0.N) (i : S25000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v14).slice (win0_3.rect t)).set ↔ _
  rw [View.set_slice_whole, Rect.mem_set_unit]
  exact Iff.rfl

/-- Whatever the region is entered with, its output array ends as the edge stage of the two scattered sums and
    the edge degree weights: row e lies in the block of point e / 1000. -/
theorem edge_final (c : Dev nD) :
    (dat0 (F := Ideal) V c).arrAt 3 cfg0.N = Cert.Spec.edge (V c main_v9) (V c main_v13) (V c main_arg2) :=
  (dat0 (F := Ideal) V c).arrAt_eq_of_cover 3 (Cert.Spec.edge (V c main_v9) (V c main_v13) (V c main_arg2))
    (fun t _ => flushed_eq V c t) fun i => by
      have h0 : (i 0).val < 25000 := (i 0).isLt
      have h1 : (i 1).val < 128 := (i 1).isLt
      have hN : cfg0.N = 25 := N_0
      refine ⟨⟨(i 0).val / 1000, by rw [hN]; omega⟩, flush0_3 _, ?_⟩
      rw [mem_block]
      obtain ⟨-, -, -, -, -, -, e30, e31⟩ := block_index ⟨(i 0).val / 1000, by rw [hN]; omega⟩
      intro a
      match a with
      | ⟨0, _⟩ =>
        show win0_3.index _ (0 : Fin 2) * 1000 ≤ (i 0).val ∧ (i 0).val < win0_3.index _ (0 : Fin 2) * 1000 + 1000
        rw [e30]; show (i 0).val / 1000 * 1000 ≤ (i 0).val ∧ (i 0).val < (i 0).val / 1000 * 1000 + 1000; omega
      | ⟨1, _⟩ =>
        show win0_3.index _ (1 : Fin 2) * 128 ≤ (i 1).val ∧ (i 1).val < win0_3.index _ (1 : Fin 2) * 128 + 128
        rw [e31]; omega

end Cert.KernelIdeal.EdgeValue

end
-- ==== Proof.NodeValueEntry.lean ====
/-
  The node-stage kernel's body at one entry of its output block.

  The body computes, from one block of 2000 rows of the gathered sum, of the node degree weights and of the initial
  features, and from the whole scale and shift rows, weight matrix and two mixing weights: the row scaled by its
  degree weight and doubled; its mean and variance over the 128 lanes as lane sums divided by 128; the centred row
  times the reciprocal square root of the variance shifted by epsilon, scaled and shifted lane by lane; the convex
  mix with the initial features by α; and the convex mix by β of that row with its product against the weight
  block. Here each layout operation of the body (a lane sum, a column of row values, a column, a row or a single
  value spread over the block, the matrix product) is read at an entry, and the whole body at entry (p, q) is the
  node stage's entry (r, q) whenever row p of the row blocks is row r of their arrays.
-/
import proofs.«159754_j67688684585239_1_alg».proof.Proof.Gen.KernelIdeal.Frame
import proofs.«159754_j67688684585239_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeValue

open Cert.KernelIdeal Cert.KernelIdeal.Gen Idealize.ShloMosaic Idealize.ShloMosaic.TcCoe Idealize.ShloMosaic.ValueIdx

/-! ## The layout operations of the body, each read at an entry -/

/-- The zero offsets of a whole block, as the constant function. -/
theorem zero_offsets : (![0, 0] : Fin 2 → Nat) = fun _ => 0 :=
  funext fun a => by match a with | ⟨0, _⟩ => rfl | ⟨1, _⟩ => rfl

/-- The sum over the 128 lanes of row `p` of a block. -/
theorem laneSum_apply (v : FVec Ideal S2000x128 .f32) (hφ : FTy.f32 = FTy.f32 ∨ FTy.f32 = FTy.bf16)
    (hacc : (0x00000000#32 : BitVec 32) = 0x00000000#32) (p : Fin 2000) :
    multiReduction .add [1] S2000 v 0x00000000#32 reduces_S2000x128_S2000 hφ hacc (ix1 p)
      = ∑ k : Fin 128, v (ix2 p k) :=
  (Ideal.multiReduction_add_single v 0x00000000#32 reduces_S2000x128_S2000 hφ hacc (ix1 p)).trans
    (Finset.sum_congr rfl fun k _ => congrArg v (funext fun a => Fin.ext (by
      match a with
      | ⟨0, _⟩ => rfl
      | ⟨1, _⟩ => rfl)))

/-- One value per row, laid out as a column: entry `(p, 0)` is row `p`'s value. -/
theorem column_apply {α : Type} (v : S2000.Idx → α) (p : Fin 2000) (z : Fin 1) :
    shapeCast S2000x1 v shapeCasts_S2000_S2000x1 (ix2 p z) = v (ix1 p) :=
  shapeCast_apply v shapeCasts_S2000_S2000x1 (ix2 p z) (ix1 p) (by
    have hz : z.val = 0 := by omega
    rw [Shape.rowMajor_val_one, Shape.rowMajor_val_two]
    show p.val = p.val * 1 + z.val
    omega)

/-- A column spread over the 128 lanes: entry `(p, q)` is the column's entry `(p, 0)`. -/
theorem spreadColumn_apply {α : Type} (v : S2000x1.Idx → α) (p : Fin 2000) (q : Fin 128) :
    broadcastTo S2000x128 v broadcasts_S2000x1_S2000x128 (ix2 p q) = v (ix2 p 0) :=
  broadcastTo_apply v broadcasts_S2000x1_S2000x128 (ix2 p q) (ix2 p 0) fun a => by
    match a with
    | ⟨0, _⟩ => rfl
    | ⟨1, _⟩ => rfl

/-- A row spread over the 2000 rows: entry `(p, q)` is the row's entry `(0, q)`. -/
theorem spreadRow_apply {α : Type} (v : S1x128.Idx → α) (p : Fin 2000) (q : Fin 128) :
    broadcastTo S2000x128 v broadcasts_S1x128_S2000x128 (ix2 p q) = v (ix2 0 q) :=
  broadcastTo_1b_ab_apply v broadcasts_S1x128_S2000x128 p q

/-- A one-by-one block spread over the whole block: every entry is its one entry. -/
theorem spreadOne_apply {α : Type} (v : S1x1.Idx → α) (p : Fin 2000) (q : Fin 128) :
    broadcastTo S2000x128 v broadcasts_S1x1_S2000x128 (ix2 p q) = v (ix2 0 0) :=
  broadcastTo_apply v broadcasts_S1x1_S2000x128 (ix2 p q) (ix2 0 0) fun a => by
    match a with
    | ⟨0, _⟩ => rfl
    | ⟨1, _⟩ => rfl

/-! ## The matrix product of the body, read at an entry -/

/-- The left operand's row is the entry's row. -/
theorem product_lhs_0 (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted position. -/
theorem product_lhs_1 (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
/-- The right operand's row is the contracted position. -/
theorem product_rhs_0 (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
/-- The right operand's column is the entry's column. -/
theorem product_rhs_1 (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a block of rows with a 128-by-128 matrix, into the zero block: entry `(p, q)` is the sum over `k`
    of the row's entry `k` times the matrix's entry `(k, q)`. -/
theorem product_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact product_lhs_0 _ _
    | ⟨1, _⟩ => exact (product_lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (product_rhs_0 _ _).trans hk
    | ⟨1, _⟩ => exact product_rhs_1 _ _)
  rw [el, er]

/-! ## The body's result at an entry -/

/-- A reciprocal square root of a block reads entry by entry. -/
theorem rsqrt_apply {s : Shape} (v : FVec Ideal s .f32) (i : s.Idx) : rsqrt v i = Ideal.rsqrt (v i) := rfl

/-- The first part of the body at entry `(p, k)`, when row `p` of the blocks is row `r` of the arrays: the row scaled by
    the degree weight and doubled, centred and normalized over its 128 lanes, scaled and shifted lane by lane, and
    weighted by one minus α. -/
theorem normPart_apply (xv : S100000x128.Idx → EReal) (dv : S100000x1.Idx → EReal) (lnw lnb : Fin 128 → EReal) (α : EReal)
    (x6 : Vec Ideal S1x1 .f32) (x0 : Vec Ideal S2000x128 .f32) (x1 : Vec Ideal S2000x1 .f32) (x3 x4 : Vec Ideal S1x128 .f32)
    (r : Fin 100000) (p : Fin 2000)
    (h0 : ∀ k : Fin 128, x0 (ix2 p k) = xv (ix2 r k)) (h1 : x1 (ix2 p 0) = dv (ix2 r 0))
    (h3 : ∀ k : Fin 128, x3 (ix2 0 k) = lnw k) (h4 : ∀ k : Fin 128, x4 (ix2 0 k) = lnb k) (h6 : x6 (ix2 0 0) = α)
    (k : Fin 128) :
    k1_pay4 x6 x0 x1 x3 x4 (ix2 p k)
      = (Cert.Spec.one - α) * (Cert.Spec.dif xv dv r k * Ideal.rsqrt (Cert.Spec.var xv dv r + Cert.Spec.eps) * lnw k + lnb k) := by
  unfold k1_pay4 k1_pay2
  -- every pointwise and layout operation read at its entry; the two lane sums of row `p` are left
  simp only [mulf_apply, addf_apply, subf_apply, divf_apply, broadcast_apply, rsqrt_apply, spreadColumn_apply, spreadRow_apply,
    spreadOne_apply, column_apply, shapeCast_self, h0, h1, h3, h4, h6]
  -- the sum of the row and the sum of its centred squares
  rw [laneSum_apply, laneSum_apply]
  simp only [mulf_apply, addf_apply, subf_apply, divf_apply, broadcast_apply, spreadColumn_apply, column_apply, h0, h1]
  -- the row's sum again, inside the centred squares
  rw [laneSum_apply]
  simp only [mulf_apply, addf_apply, spreadColumn_apply, h0, h1]
  rfl

/-- The body's result at entry `(p, q)`, when row `p` of the row blocks is row `r` of their arrays and the whole-array
    blocks are their arrays: the node stage's entry `(r, q)`. The mix with the initial features gives the row `xi`; the
    matrix product of that row with the weight block is the sum over `k` of `xi r k` times the block's entry `(k, q)`. -/
theorem out_apply (xv : S100000x128.Idx → EReal) (dv : S100000x1.Idx → EReal) (xinit : S100000x128.Idx → EReal)
    (lnw lnb : Fin 128 → EReal) (w : Fin 128 → Fin 128 → EReal) (α β : EReal)
    (x0 : Vec Ideal S2000x128 .f32) (x1 : Vec Ideal S2000x1 .f32) (x2 : Vec Ideal S2000x128 .f32)
    (x3 x4 : Vec Ideal S1x128 .f32) (x5 : Vec Ideal S128x128 .f32) (x6 x7 : Vec Ideal S1x1 .f32)
    (r : Fin 100000) (p : Fin 2000)
    (h0 : ∀ k : Fin 128, x0 (ix2 p k) = xv (ix2 r k)) (h1 : x1 (ix2 p 0) = dv (ix2 r 0))
    (h2 : ∀ k : Fin 128, x2 (ix2 p k) = xinit (ix2 r k))
    (h3 : ∀ k : Fin 128, x3 (ix2 0 k) = lnw k) (h4 : ∀ k : Fin 128, x4 (ix2 0 k) = lnb k)
    (h5 : ∀ k q : Fin 128, x5 (ix2 k q) = w q k) (h6 : x6 (ix2 0 0) = α) (h7 : x7 (ix2 0 0) = β)
    (q : Fin 128) :
    out1_8 x0 x1 x2 x3 x4 x5 x6 x7 (ix2 p q) = Cert.Spec.nodeAt xv dv xinit lnw lnb w α β r q := by
  unfold out1_8
  rw [View.canon_unit_zero zero_offsets]
  simp only [View.ld_unit_zero (S := S1x1) zero_offsets, View.ld_unit_zero (S := S2000x128) zero_offsets,
    View.ld_unit_zero (S := S2000x1) zero_offsets, View.ld_unit_zero (S := S1x128) zero_offsets,
    View.ld_unit_zero (S := S128x128) zero_offsets]
  unfold k1_pay1 k1_pay2 k1_pay3
  simp only [mulf_apply, addf_apply, subf_apply, truncf_apply, broadcast_apply, spreadOne_apply, product_apply, shapeCast_self,
    normPart_apply xv dv lnw lnb α x6 x0 x1 x3 x4 r p h0 h1 h3 h4 h6, h2, h5, h6, h7]
  rfl

end Cert.KernelIdeal.NodeValue

end
-- ==== Proof.NodeValue.lean ====
/-
  The node-stage kernel's output array after its pipeline, for any contents the region is entered with: the
  node stage of the arrays its windows read.

  The grid has 50 points. Point t reads rows 2000 t … 2000 t + 1999 of the gathered sum, of the node degree weights
  and of the initial features, and at every point the whole scale and shift rows, weight matrix and mixing weights;
  it writes rows 2000 t … 2000 t + 1999 of the output. So each input block, read at an entry, is its array read at
  the entry's place in the array; what point t writes back is block t of the node stage of those arrays (the
  body at an entry is the node stage's entry of that row); and the 50 blocks cover the 100000 rows, row r lying in
  the block of point r / 2000. Hence the array ends as the node stage.
-/
import proofs.«159754_j67688684585239_1_alg».proof.Proof.Gen.KernelIdeal.Frame
import proofs.«159754_j67688684585239_1_alg».proof.Proof.Spec
import proofs.«159754_j67688684585239_1_alg».proof.Proof.NodeValueEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeValue

open Cert.KernelIdeal Cert.KernelIdeal.Gen Idealize.ShloMosaic Idealize.ShloMosaic.TcCoe Idealize.ShloMosaic.ValueIdx
open Idealize.ShloMosaic.Pipeline (Dat)

/-! ## The input blocks in array coordinates -/

section Blocks

variable (V : (c : Dev nD) → (b : Ref sig .tc) → Buf (Elt Ideal) ((c : Thread nD τ).loc b)) (c : Dev nD)

/-- The printed index maps over the 50 grid points: the four windows that move with the point (the gathered sum, the
    degree weights, the initial features, the output) put point `t` at block row `t`, block column 0; the five
    whole-array windows stay at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row `p` of point `t`'s block is a row of the array: `2000 t + p` is below 100000. -/
theorem rowOf_lt (t : Fin cfg1.N) (p : Fin 2000) : 2000 * t.val + p.val < 100000 := by
  have ht : t.val < 50 := Nat.lt_of_lt_of_eq t.isLt N_1
  omega

/-- The array row that row `p` of point `t`'s block holds. -/
abbrev rowOf (t : Fin cfg1.N) (p : Fin 2000) : Fin 100000 := ⟨2000 * t.val + p.val, rowOf_lt t p⟩

/-- Point `t`'s block of the gathered sum, row `p`: row `2000 t + p` of the array. -/
theorem gathered_block (t : Fin cfg1.N) (p : Fin 2000) (k : Fin 128) :
    (iblk1 V c 0 t : Vec Ideal S2000x128 .f32) (ix2 p k) = (V c main_v24 : S100000x128.Idx → EReal) (ix2 (rowOf t p) k) := by
  obtain ⟨e0, e1, -⟩ := index_facts t
  show V c main_v24 (((cfg1.win 0).blk t).view.emb (ix2 p k)) = V c main_v24 (ix2 (rowOf t p) k)
  refine congrArg (V c main_v24) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- Point `t`'s block of the degree weights, row `p`: row `2000 t + p` of the array. -/
theorem degree_block (t : Fin cfg1.N) (p : Fin 2000) :
    (iblk1 V c 1 t : Vec Ideal S2000x1 .f32) (ix2 p 0) = (V c main_arg3 : S100000x1.Idx → EReal) (ix2 (rowOf t p) 0) := by
  obtain ⟨-, -, e0, e1, -⟩ := index_facts t
  show V c main_arg3 (((cfg1.win 1).blk t).view.emb (ix2 p 0)) = V c main_arg3 (ix2 (rowOf t p) 0)
  refine congrArg (V c main_arg3) (funext fun a => Fin.ext ?_)
  match a with
  | ⟨0, _⟩ => show win1_1.index t (0 : Fin 2) * 2000 + 1 * p.val = 2000 * t.val + p.val; omega
  | ⟨1, _⟩ => show win1_1.index t (1 : Fin 2) * 1 + 1 * 0 = 0; omega

/-- Point `t`'s block of the initial features, row `p`: row `2000 t + p` of the array. -/
theorem initial_block (t : Fin cfg1.N) (p : Fin 2000) (k : Fin 128) :
    (iblk1 V c 2 t : Vec Ideal S2000x128 .f32) (ix2 p k) = (V c main_arg1 : S100000x128.Idx → EReal) (ix2 (rowOf t p) k) := by
  obtain ⟨-, -, -, -, e0, e1, -⟩ := index_facts t
  show V c main_arg1 (((cfg1.win 2).blk t).view.emb (ix2 p k)) = V c main_arg1 (ix2 (rowOf t p) k)
  refine congrArg (V c main_arg1) (funext fun a => Fin.ext ?_)
  match a with
  | ⟨0, _⟩ => show win1_2.index t (0 : Fin 2) * 2000 + 1 * p.val = 2000 * t.val + p.val; omega
  | ⟨1, _⟩ => show win1_2.index t (1 : Fin 2) * 128 + 1 * k.val = k.val; omega

/-- The norm's scale: at every point the block is the whole one-row array. -/
theorem scale_block (t : Fin cfg1.N) (k : Fin 128) :
    (iblk1 V c 3 t : Vec Ideal S1x128 .f32) (ix2 0 k) = (V c main_v25 : S1x128.Idx → EReal) (ix2 0 k) := by
  obtain ⟨-, -, -, -, -, -, e0, e1, -⟩ := index_facts t
  show V c main_v25 (((cfg1.win 3).blk t).view.emb (ix2 0 k)) = V c main_v25 (ix2 0 k)
  refine congrArg (V c main_v25) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- The norm's shift: at every point the block is the whole one-row array. -/
theorem shift_block (t : Fin cfg1.N) (k : Fin 128) :
    (iblk1 V c 4 t : Vec Ideal S1x128 .f32) (ix2 0 k) = (V c main_v26 : S1x128.Idx → EReal) (ix2 0 k) := by
  obtain ⟨-, -, -, -, -, -, -, -, e0, e1, -⟩ := index_facts t
  show V c main_v26 (((cfg1.win 4).blk t).view.emb (ix2 0 k)) = V c main_v26 (ix2 0 k)
  refine congrArg (V c main_v26) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

/-- The weight matrix: at every point the block is the whole array. -/
theorem weight_block (t : Fin cfg1.N) (k q : Fin 128) :
    (iblk1 V c 5 t : Vec Ideal S128x128 .f32) (ix2 k q) = (V c main_v27 : S128x128.Idx → EReal) (ix2 k q) := by
  obtain ⟨-, -, -, -, -, -, -, -, -, -, e0, e1, -⟩ := index_facts t
  show V c main_v27 (((cfg1.win 5).blk t).view.emb (ix2 k q)) = V c main_v27 (ix2 k q)
  refine congrArg (V c main_v27) (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

/-- The first mixing weight: at every point the block is the whole one-by-one array. -/
theorem alpha_block (t : Fin cfg1.N) :
    (iblk1 V c 6 t : Vec Ideal S1x1 .f32) (ix2 0 0) = (V c main_v28 : S1x1.Idx → EReal) (ix2 0 0) := by
  obtain ⟨-, -, -, -, -, -, -, -, -, -, -, -, e0, e1, -⟩ := index_facts t
  show V c main_v28 (((cfg1.win 6).blk t).view.emb (ix2 0 0)) = V c main_v28 (ix2 0 0)
  refine congrArg (V c main_v28) (funext fun a => Fin.ext ?_)
  match a with
  | ⟨0, _⟩ => show win1_6.index t (0 : Fin 2) * 1 + 1 * 0 = 0; omega
  | ⟨1, _⟩ => show win1_6.index t (1 : Fin 2) * 1 + 1 * 0 = 0; omega

/-- The second mixing weight: at every point the block is the whole one-by-one array. -/
theorem beta_block (t : Fin cfg1.N) :
    (iblk1 V c 7 t : Vec Ideal S1x1 .f32) (ix2 0 0) = (V c main_v29 : S1x1.Idx → EReal) (ix2 0 0) := by
  obtain ⟨-, -, -, -, -, -, -, -, -, -, -, -, -, -, e0, e1, -⟩ := index_facts t
  show V c main_v29 (((cfg1.win 7).blk t).view.emb (ix2 0 0)) = V c main_v29 (ix2 0 0)
  refine congrArg (V c main_v29) (funext fun a => Fin.ext ?_)
  match a with
  | ⟨0, _⟩ => show win1_7.index t (0 : Fin 2) * 1 + 1 * 0 = 0; omega
  | ⟨1, _⟩ => show win1_7.index t (1 : Fin 2) * 1 + 1 * 0 = 0; omega

end Blocks

/-! ## From blocks to the array -/

section Final

variable (V : (c : Dev nD) → (b : Ref sig .tc) → Buf (Elt Ideal) ((c : Thread nD τ).loc b)) (c : Dev nD)

/-- What point `t` writes back is block `t` of the node stage of the arrays the region is entered with: entry `(p, q)` of
    the block sits at row `2000 t + p` of the array, and the body's result there is the node stage's entry of that row. -/
theorem flushed_eq (t : Fin cfg1.N) :
    (dat1 (F := Ideal) V c).flushed 8 t = ((cfg1.win 8).blk t).view.read (Elt Ideal)
      (Cert.Spec.node (V c main_v24) (V c main_arg3) (V c main_arg1) (fun k => V c main_v25 (ix2 0 k))
        (fun k => V c main_v26 (ix2 0 k)) (fun q k => V c main_v27 (ix2 k q)) (V c main_v28 (ix2 0 0)) (V c main_v29 (ix2 0 0))) := by
  show (cfg1.win 8).cut (grid1.coords t) ((dat1 V c).after 8 t) = _
  rw [after1_8]
  funext j
  obtain ⟨p, q, rfl⟩ : ∃ (p : Fin 2000) (q : Fin 128), j = ix2 p q := ⟨j 0, j 1, eq_ix2 j⟩
  obtain ⟨-, -, -, -, -, -, -, -, -, -, -, -, -, -, -, -, e0, e1⟩ := index_facts t
  have hemb : ((cfg1.win 8).blk t).view.emb (ix2 p q) = ix2 (rowOf t p) q := funext fun a => Fin.ext (by
    match a with
    | ⟨0, _⟩ => show win1_8.index t (0 : Fin 2) * 2000 + 1 * p.val = 2000 * t.val + p.val; omega
    | ⟨1, _⟩ => show win1_8.index t (1 : Fin 2) * 128 + 1 * q.val = q.val; omega)
  show out1_8 (iblk1 V c 0 t) (iblk1 V c 1 t) (iblk1 V c 2 t) (iblk1 V c 3 t) (iblk1 V c 4 t) (iblk1 V c 5 t) (iblk1 V c 6 t) (iblk1 V c 7 t) (ix2 p q)
    = Cert.Spec.node (V c main_v24) (V c main_arg3) (V c main_arg1) (fun k => V c main_v25 (ix2 0 k))
        (fun k => V c main_v26 (ix2 0 k)) (fun q k => V c main_v27 (ix2 k q)) (V c main_v28 (ix2 0 0)) (V c main_v29 (ix2 0 0))
        (((cfg1.win 8).blk t).view.emb (ix2 p q))
  rw [hemb]
  exact out_apply (V c main_v24) (V c main_arg3) (V c main_arg1) (fun k => V c main_v25 (ix2 0 k))
    (fun k => V c main_v26 (ix2 0 k)) (fun q k => V c main_v27 (ix2 k q)) (V c main_v28 (ix2 0 0)) (V c main_v29 (ix2 0 0))
    (iblk1 V c 0 t) (iblk1 V c 1 t) (iblk1 V c 2 t) (iblk1 V c 3 t) (iblk1 V c 4 t) (iblk1 V c 5 t) (iblk1 V c 6 t) (iblk1 V c 7 t)
    (rowOf t p) p (fun k => gathered_block V c t p k) (degree_block V c t p) (fun k => initial_block V c t p k)
    (fun k => scale_block V c t k) (fun k => shift_block V c t k) (fun k q => weight_block V c t k q)
    (alpha_block V c t) (beta_block V c t) q

/-- An entry of the output array is in point `t`'s block exactly when each coordinate is in the block's range. -/
theorem mem_block (t : Fin cfg1.N) (i : S100000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v30).slice (win1_8.rect t)).set ↔ _
  rw [View.set_slice_whole, Rect.mem_set_unit]
  exact Iff.rfl

/-- The 50 blocks of 2000 rows cover the array: row `r` is in the block of point `r / 2000`, which is written back. -/
theorem covered (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have ht : (i 0).val / 2000 < cfg1.N := Nat.lt_of_lt_of_eq (show (i 0).val / 2000 < 50 by omega) N_1.symm
  refine ⟨⟨(i 0).val / 2000, ht⟩, flush1_8 _, ?_⟩
  obtain ⟨-, -, -, -, -, -, -, -, -, -, -, -, -, -, -, -, e0, e1⟩ := index_facts ⟨(i 0).val / 2000, ht⟩
  have e0' : win1_8.index ⟨(i 0).val / 2000, ht⟩ (0 : Fin 2) = (i 0).val / 2000 := e0
  rw [mem_block]
  intro a
  match a with
  | ⟨0, _⟩ =>
    show win1_8.index ⟨(i 0).val / 2000, ht⟩ (0 : Fin 2) * 2000 ≤ (i 0).val
      ∧ (i 0).val < win1_8.index ⟨(i 0).val / 2000, ht⟩ (0 : Fin 2) * 2000 + 2000
    omega
  | ⟨1, _⟩ =>
    show win1_8.index ⟨(i 0).val / 2000, ht⟩ (1 : Fin 2) * 128 ≤ (i 1).val
      ∧ (i 1).val < win1_8.index ⟨(i 0).val / 2000, ht⟩ (1 : Fin 2) * 128 + 128
    omega

end Final

/-- Whatever the region is entered with, its output array ends as the node stage of the arrays it reads: the
    scattered sum, the node degree weights, the initial features, the norm's scale and shift as rows, the
    transposed weight matrix, and the two mixing weights as one-by-one arrays. -/
theorem node_final (V : (c : Dev nD) → (b : Ref sig .tc) → Buf (Elt Ideal) ((c : Thread nD τ).loc b)) (c : Dev nD) :
    (dat1 (F := Ideal) V c).arrAt 8 cfg1.N
      = Cert.Spec.node (V c main_v24) (V c main_arg3) (V c main_arg1) (fun k => V c main_v25 (ix2 0 k))
          (fun k => V c main_v26 (ix2 0 k)) (fun q k => V c main_v27 (ix2 k q)) (V c main_v28 (ix2 0 0)) (V c main_v29 (ix2 0 0)) :=
  (dat1 (F := Ideal) V c).arrAt_eq_of_cover 8 _ (fun t _ => flushed_eq V c t) covered

end Cert.KernelIdeal.NodeValue

end
-- ==== Proof.RefValue.lean ====
/-
  The reference's two dense stages, read index by index: the edge features are the edge stage of the two
  scattered sums and the degree weights; the result is the node stage of the scattered sum of gathered edge
  features and the remaining arguments.
-/
import proofs.«159754_j67688684585239_1_alg».proof.Proof.Gen.ReferenceIdeal.Read
import proofs.«159754_j67688684585239_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-- The edge features of the reference are the edge stage of its two scattered sums. -/
theorem edge_ref (x0 : (⟨S100000x128, .f32⟩ : BufTy).Contents (Elt Ideal)) (x2 : (⟨S25000x1, .f32⟩ : BufTy).Contents (Elt Ideal))
    (x9 x10 : (⟨S640000, .i32⟩ : BufTy).Contents (Elt Ideal)) :
    val_main_v19 (F := Ideal) x0 x2 x9 x10
      = Cert.Spec.edge (val_main_v9 (F := Ideal) x0 x9 x10) (val_main_v13 (F := Ideal) x10) x2 := by
  refine Cert.Spec.ext_ix2 fun e j => ?_
  -- the count and the degree weight are columns: both are read at (e, 0)
  have e16 : idx_main_v16 (ix2 e j) = (ix2 e (0 : Fin 1) : S25000x1.Idx) :=
    funext fun a => Fin.ext (by match a with | ⟨0, _⟩ => rfl | ⟨1, _⟩ => rfl)
  have e18 : idx_main_v18 (ix2 e j) = (ix2 e (0 : Fin 1) : S25000x1.Idx) :=
    funext fun a => Fin.ext (by match a with | ⟨0, _⟩ => rfl | ⟨1, _⟩ => rfl)
  rw [Cert.Spec.edge_ix2, val_main_v19_apply, val_main_v17_apply, val_main_v16_apply, val_main_v15_apply,
    val_main_v14_apply, val_main_cst_3_apply, val_main_v18_apply, e16, e18]
  rfl

/-! ## The node stage, layer by layer -/

section Node

variable (x0 x1 : (⟨S100000x128, .f32⟩ : BufTy).Contents (Elt Ideal)) (x2 : (⟨S25000x1, .f32⟩ : BufTy).Contents (Elt Ideal))
  (x3 : (⟨S100000x1, .f32⟩ : BufTy).Contents (Elt Ideal)) (x4 : (⟨S128x128, .f32⟩ : BufTy).Contents (Elt Ideal))
  (x5 x6 : (⟨S_, .f32⟩ : BufTy).Contents (Elt Ideal)) (x7 x8 : (⟨S128, .f32⟩ : BufTy).Contents (Elt Ideal))
  (x9 x10 : (⟨S640000, .i32⟩ : BufTy).Contents (Elt Ideal))

/-- A column read from the row's position (r, k) is read at (r, 0). -/
private theorem col_idx (r : Fin 100000) (k : Fin 128) :
    (fun a => match a with
      | ⟨0, _⟩ => ⟨((ix2 r k : S100000x128.Idx) 0).val, ((ix2 r k : S100000x128.Idx) 0).isLt⟩
      | ⟨1, _⟩ => ⟨0, Nat.one_pos⟩ : S100000x1.Idx) = (ix2 r (0 : Fin 1) : S100000x1.Idx) :=
  funext fun a => Fin.ext (by match a with | ⟨0, _⟩ => rfl | ⟨1, _⟩ => rfl)

/-- Position k of row r, reached from the row's column position (r, 0). -/
private theorem row_idx (r : Fin 100000) (k : Fin 128) :
    idx_main_v33 (idx_main_v34 (ix2 r (0 : Fin 1) : S100000x1.Idx)) k = (ix2 r k : S100000x128.Idx) :=
  funext fun a => Fin.ext (by match a with | ⟨0, _⟩ => rfl | ⟨1, _⟩ => rfl)

/-- The degree-scaled row, doubled. -/
private theorem v32_at (r : Fin 100000) (k : Fin 128) :
    val_main_v32 (F := Ideal) x0 x2 x3 x9 x10 (ix2 r k)
      = Cert.Spec.xh (val_main_v29 (F := Ideal) x0 x2 x9 x10) x3 r k := by
  have e30 : idx_main_v30 (ix2 r k) = (ix2 r (0 : Fin 1) : S100000x1.Idx) := col_idx r k
  rw [val_main_v32_apply, val_main_v31_apply, val_main_v30_apply, e30]
  rfl

/-- The row's mean: the sum starts from the zero word. -/
private theorem v36_at (r : Fin 100000) :
    val_main_v36 (F := Ideal) x0 x2 x3 x9 x10 (ix2 r (0 : Fin 1))
      = Cert.Spec.mean (val_main_v29 (F := Ideal) x0 x2 x9 x10) x3 r := by
  rw [val_main_v36_apply, val_main_v34_apply, val_main_v33_apply, val_main_v35_apply, val_main_cst_8_apply,
    val_main_cst_7_apply, Ideal.ofBits_def, Ideal.ofBits_def, Ideal.ofBits_zero_f32, zero_add,
    Finset.sum_congr rfl fun k _ => (congrArg _ (row_idx r k)).trans (v32_at x0 x2 x3 x9 x10 r k)]
  rfl

/-- The centred row (the reference computes it twice; this is the second). -/
private theorem v45_at (r : Fin 100000) (k : Fin 128) :
    val_main_v45 (F := Ideal) x0 x2 x3 x9 x10 (ix2 r k)
      = Cert.Spec.dif (val_main_v29 (F := Ideal) x0 x2 x9 x10) x3 r k := by
  have e44 : idx_main_v44 (ix2 r k) = (ix2 r (0 : Fin 1) : S100000x1.Idx) := col_idx r k
  rw [val_main_v45_apply, val_main_v44_apply, e44, v32_at, v36_at]
  rfl

/-- The centred row (the first time). -/
private theorem v38_at (r : Fin 100000) (k : Fin 128) :
    val_main_v38 (F := Ideal) x0 x2 x3 x9 x10 (ix2 r k)
      = Cert.Spec.dif (val_main_v29 (F := Ideal) x0 x2 x9 x10) x3 r k := by
  have e37 : idx_main_v37 (ix2 r k) = (ix2 r (0 : Fin 1) : S100000x1.Idx) := col_idx r k
  rw [val_main_v38_apply, val_main_v37_apply, e37, v32_at, v36_at]
  rfl

/-- The row's variance. -/
private theorem v43_at (r : Fin 100000) :
    val_main_v43 (F := Ideal) x0 x2 x3 x9 x10 (ix2 r (0 : Fin 1))
      = Cert.Spec.var (val_main_v29 (F := Ideal) x0 x2 x9 x10) x3 r := by
  have e : ∀ k : Fin 128, idx_main_v40 (idx_main_v41 (ix2 r (0 : Fin 1) : S100000x1.Idx)) k = (ix2 r k : S100000x128.Idx) :=
    fun k => funext fun a => Fin.ext (by match a with | ⟨0, _⟩ => rfl | ⟨1, _⟩ => rfl)
  rw [val_main_v43_apply, val_main_v41_apply, val_main_v40_apply, val_main_v42_apply, val_main_cst_10_apply,
    val_main_cst_9_apply, Ideal.ofBits_def, Ideal.ofBits_def, Ideal.ofBits_zero_f32, zero_add,
    Finset.sum_congr rfl fun k _ => by
      rw [e k, val_main_v39_apply, v38_at x0 x2 x3 x9 x10 r k]]
  rfl

/-- The normalized row, scaled and shifted, mixed with the initial features. -/
private theorem v62_at (r : Fin 100000) (k : Fin 128) :
    val_main_v62 (F := Ideal) x0 x1 x2 x3 x5 x7 x8 x9 x10 (ix2 r k)
      = Cert.Spec.xi (val_main_v29 (F := Ideal) x0 x2 x9 x10) x3 x1 (fun k => x7 (ix1 k)) (fun k => x8 (ix1 k))
          (x5 ix0) r k := by
  have e49 : idx_main_v49 (ix2 r k) = (ix2 r (0 : Fin 1) : S100000x1.Idx) := col_idx r k
  have e51 : idx_main_v51 (idx_main_v52 (ix2 r k)) = (ix1 k : S128.Idx) :=
    funext fun a => Fin.ext (by match a with | ⟨0, _⟩ => rfl)
  have e54 : idx_main_v54 (idx_main_v55 (ix2 r k)) = (ix1 k : S128.Idx) :=
    funext fun a => Fin.ext (by match a with | ⟨0, _⟩ => rfl)
  rw [val_main_v62_apply, val_main_v59_apply, val_main_v58_apply, val_main_v57_apply, val_main_cst_12_apply,
    val_main_v56_apply, val_main_v53_apply, val_main_v50_apply, v45_at, val_main_v49_apply, e49, val_main_v48_apply,
    val_main_v47_apply, v43_at, val_main_v46_apply, val_main_cst_11_apply, val_main_v52_apply, val_main_v51_apply, e51,
    val_main_v55_apply, val_main_v54_apply, e54, val_main_v61_apply, val_main_v60_apply]
  rfl

end Node

/-- The reference's result is the node stage of its scattered sum of gathered edge features. -/
theorem node_ref (x0 x1 : (⟨S100000x128, .f32⟩ : BufTy).Contents (Elt Ideal)) (x2 : (⟨S25000x1, .f32⟩ : BufTy).Contents (Elt Ideal))
    (x3 : (⟨S100000x1, .f32⟩ : BufTy).Contents (Elt Ideal)) (x4 : (⟨S128x128, .f32⟩ : BufTy).Contents (Elt Ideal))
    (x5 x6 : (⟨S_, .f32⟩ : BufTy).Contents (Elt Ideal)) (x7 x8 : (⟨S128, .f32⟩ : BufTy).Contents (Elt Ideal))
    (x9 x10 : (⟨S640000, .i32⟩ : BufTy).Contents (Elt Ideal)) :
    val_main_v70 (F := Ideal) x0 x1 x2 x3 x4 x5 x6 x7 x8 x9 x10
      = Cert.Spec.node (val_main_v29 (F := Ideal) x0 x2 x9 x10) x3 x1 (fun k => x7 (ix1 k)) (fun k => x8 (ix1 k))
          (fun q k => x4 (ix2 q k)) (x5 ix0) (x6 ix0) := by
  refine Cert.Spec.ext_ix2 fun r q => ?_
  -- the product's left operand is row r; its right operand, the transposed weights, is read at (q, k)
  have el : ∀ k : Fin 128, lidx_main_v67 (ix2 r q) k = (ix2 r k : S100000x128.Idx) :=
    fun k => funext fun a => Fin.ext (by match a with | ⟨0, _⟩ => rfl | ⟨1, _⟩ => rfl)
  have er : ∀ k : Fin 128, idx_main_v66 (ridx_main_v67 (ix2 r q) k) = (ix2 q k : S128x128.Idx) :=
    fun k => funext fun a => Fin.ext (by match a with | ⟨0, _⟩ => rfl | ⟨1, _⟩ => rfl)
  rw [Cert.Spec.node_ix2, val_main_v70_apply, val_main_v65_apply, val_main_v64_apply, val_main_v63_apply,
    val_main_cst_13_apply, v62_at, val_main_v69_apply, val_main_v68_apply, val_main_v67_apply,
    Finset.sum_congr rfl fun k _ => by
      rw [el k, v62_at x0 x1 x2 x3 x5 x7 x8 x9 x10 r k, val_main_v66_apply, er k]]
  rfl

end Cert.ReferenceIdeal.RefValue

end
-- ==== Proof.Bridge.lean ====
/-
  The kernel's result buffer, read back through @main: the node-stage region's output array is the node stage
  of what the host lines before it leave — the scatter-add over the vertex indices of the gathered edge features,
  the norm's scale and shift as rows, the transposed weights, the two mixing weights as one-by-one arrays — and
  the edge features it gathers are the edge-stage region's output array, the edge stage of the two scatter-adds
  over the edge indices. Host line by host line these are the reference's own operations on the same arguments,
  so the buffer ends at the reference's term.
-/
import proofs.«159754_j67688684585239_1_alg».proof.Proof.KernelIdealRun
import proofs.«159754_j67688684585239_1_alg».proof.Proof.EdgeValue
import proofs.«159754_j67688684585239_1_alg».proof.Proof.NodeValue
import proofs.«159754_j67688684585239_1_alg».proof.Proof.RefValue
import Idealize.ShloMosaic.Lib.StableHlo.Run
import Idealize.ShloMosaic.Lib.Pipeline.Value
import Idealize.ShloMosaic.Lib.ValueLayout

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-! ## The arguments as the two regions find them: no host line writes an argument -/

theorem w1_arg0 : W1 m ρ c (Proc.devRef .tc main_arg0) = (m ((c.tc : Thread nD τ).loc main_arg0)) := by
  show StableHlo.after hostOps0 (W0 m ρ c) (Proc.devRef .tc main_arg0) = _
  after_results
theorem w1_arg2 : W1 m ρ c (Proc.devRef .tc main_arg2) = (m ((c.tc : Thread nD τ).loc main_arg2)) := by
  show StableHlo.after hostOps0 (W0 m ρ c) (Proc.devRef .tc main_arg2) = _
  after_results
theorem w1_arg9 : W1 m ρ c (Proc.devRef .tc main_arg9) = (m ((c.tc : Thread nD τ).loc main_arg9)) := by
  show StableHlo.after hostOps0 (W0 m ρ c) (Proc.devRef .tc main_arg9) = _
  after_results
theorem w1_arg10 : W1 m ρ c (Proc.devRef .tc main_arg10) = (m ((c.tc : Thread nD τ).loc main_arg10)) := by
  show StableHlo.after hostOps0 (W0 m ρ c) (Proc.devRef .tc main_arg10) = _
  after_results

/-- An argument that is no array of the edge-stage region is after that region what it was at launch. -/
theorem w2_arg1 : W2 m ρ c (Proc.devRef .tc main_arg1) = (m ((c.tc : Thread nD τ).loc main_arg1)) := by
  rw [W2_of_ne m ρ c main_arg1 (by decide)]
  show StableHlo.after hostOps0 (W0 m ρ c) (Proc.devRef .tc main_arg1) = _
  after_results
theorem w2_arg3 : W2 m ρ c (Proc.devRef .tc main_arg3) = (m ((c.tc : Thread nD τ).loc main_arg3)) := by
  rw [W2_of_ne m ρ c main_arg3 (by decide)]
  show StableHlo.after hostOps0 (W0 m ρ c) (Proc.devRef .tc main_arg3) = _
  after_results
theorem w2_arg4 : W2 m ρ c (Proc.devRef .tc main_arg4) = (m ((c.tc : Thread nD τ).loc main_arg4)) := by
  rw [W2_of_ne m ρ c main_arg4 (by decide)]
  show StableHlo.after hostOps0 (W0 m ρ c) (Proc.devRef .tc main_arg4) = _
  after_results
theorem w2_arg5 : W2 m ρ c (Proc.devRef .tc main_arg5) = (m ((c.tc : Thread nD τ).loc main_arg5)) := by
  rw [W2_of_ne m ρ c main_arg5 (by decide)]
  show StableHlo.after hostOps0 (W0 m ρ c) (Proc.devRef .tc main_arg5) = _
  after_results
theorem w2_arg6 : W2 m ρ c (Proc.devRef .tc main_arg6) = (m ((c.tc : Thread nD τ).loc main_arg6)) := by
  rw [W2_of_ne m ρ c main_arg6 (by decide)]
  show StableHlo.after hostOps0 (W0 m ρ c) (Proc.devRef .tc main_arg6) = _
  after_results
theorem w2_arg7 : W2 m ρ c (Proc.devRef .tc main_arg7) = (m ((c.tc : Thread nD τ).loc main_arg7)) := by
  rw [W2_of_ne m ρ c main_arg7 (by decide)]
  show StableHlo.after hostOps0 (W0 m ρ c) (Proc.devRef .tc main_arg7) = _
  after_results
theorem w2_arg8 : W2 m ρ c (Proc.devRef .tc main_arg8) = (m ((c.tc : Thread nD τ).loc main_arg8)) := by
  rw [W2_of_ne m ρ c main_arg8 (by decide)]
  show StableHlo.after hostOps0 (W0 m ρ c) (Proc.devRef .tc main_arg8) = _
  after_results
theorem w2_arg9 : W2 m ρ c (Proc.devRef .tc main_arg9) = (m ((c.tc : Thread nD τ).loc main_arg9)) := by
  rw [W2_of_ne m ρ c main_arg9 (by decide)]
  show StableHlo.after hostOps0 (W0 m ρ c) (Proc.devRef .tc main_arg9) = _
  after_results
theorem w2_arg10 : W2 m ρ c (Proc.devRef .tc main_arg10) = (m ((c.tc : Thread nD τ).loc main_arg10)) := by
  rw [W2_of_ne m ρ c main_arg10 (by decide)]
  show StableHlo.after hostOps0 (W0 m ρ c) (Proc.devRef .tc main_arg10) = _
  after_results

/-! ## Before the edge-stage region: the two scatter-adds over the edge indices -/

theorem summed_members : V1 m ρ c main_v9 = Cert.ReferenceIdeal.Read.val_main_v9 (F := Ideal) (m ((c.tc : Thread nD τ).loc main_arg0)) (m ((c.tc : Thread nD τ).loc main_arg9)) (m ((c.tc : Thread nD τ).loc main_arg10)) := by
  show StableHlo.after hostOps0 (W0 m ρ c) (Proc.devRef .tc main_v9) = _
  after_results
  rfl

theorem member_count : V1 m ρ c main_v13 = Cert.ReferenceIdeal.Read.val_main_v13 (F := Ideal) (m ((c.tc : Thread nD τ).loc main_arg10)) := by
  show StableHlo.after hostOps0 (W0 m ρ c) (Proc.devRef .tc main_v13) = _
  after_results
  rfl

/-- The edge-stage region leaves the reference's edge features in its output array. -/
theorem edge_features : W2 m ρ c (Proc.devRef .tc main_v14)
    = Cert.ReferenceIdeal.Read.val_main_v19 (F := Ideal) (m ((c.tc : Thread nD τ).loc main_arg0)) (m ((c.tc : Thread nD τ).loc main_arg2)) (m ((c.tc : Thread nD τ).loc main_arg9)) (m ((c.tc : Thread nD τ).loc main_arg10)) := by
  refine (W2_arr m ρ c 3).trans ?_
  rw [Cert.KernelIdeal.EdgeValue.edge_final (V1 m ρ) c, Cert.ReferenceIdeal.RefValue.edge_ref, summed_members, member_count]
  exact congrArg _ (w1_arg2 m ρ c)

/-! ## Before the node-stage region -/

/-- The scatter-add over the vertex indices of the gathered edge features. -/
theorem gathered_sum : V3 m ρ c main_v24 = Cert.ReferenceIdeal.Read.val_main_v29 (F := Ideal) (m ((c.tc : Thread nD τ).loc main_arg0)) (m ((c.tc : Thread nD τ).loc main_arg2)) (m ((c.tc : Thread nD τ).loc main_arg9)) (m ((c.tc : Thread nD τ).loc main_arg10)) := by
  show StableHlo.after hostOps1 (W2 m ρ c) (Proc.devRef .tc main_v24) = _
  after_results
  rw [edge_features, w2_arg9, w2_arg10]
  rfl

/-- The node degree weights and the initial features are arguments. -/
theorem node_degree : V3 m ρ c main_arg3 = (m ((c.tc : Thread nD τ).loc main_arg3)) := by
  show StableHlo.after hostOps1 (W2 m ρ c) (Proc.devRef .tc main_arg3) = _
  after_results
  exact w2_arg3 m ρ c

theorem initial_features : V3 m ρ c main_arg1 = (m ((c.tc : Thread nD τ).loc main_arg1)) := by
  show StableHlo.after hostOps1 (W2 m ρ c) (Proc.devRef .tc main_arg1) = _
  after_results
  exact w2_arg1 m ρ c

/-- A vector of 128 entries recast as one row reads the vector. -/
theorem row_of_vector (x : S128.Idx → EReal) (h : S128.ShapeCasts S1x128) (k : Fin 128) :
    shapeCast S1x128 x h (ix2 0 k) = x (ix1 k) :=
  (shapeCast_addUnit_apply ![128] x h (ix2 0 k)).trans
    (congrArg x (funext fun a => match a with | ⟨0, _⟩ => rfl))

/-- A scalar recast as a one-by-one array reads the scalar. -/
theorem cell_of_scalar (x : S_.Idx → EReal) (h : S_.ShapeCasts S1x1) (j : S1x1.Idx) :
    shapeCast S1x1 x h j = x ix0 := by
  unfold shapeCast
  exact congrArg x (funext fun a => a.elim0)

/-- The norm's scale, as the row the region reads. -/
theorem norm_scale : (fun k : Fin 128 => V3 m ρ c main_v25 (ix2 0 k)) = fun k => (m ((c.tc : Thread nD τ).loc main_arg7)) (ix1 k) := by
  funext k
  show StableHlo.after hostOps1 (W2 m ρ c) (Proc.devRef .tc main_v25) (ix2 0 k) = _
  after_results
  rw [w2_arg7]
  exact row_of_vector _ _ k

/-- The norm's shift, as the row the region reads. -/
theorem norm_shift : (fun k : Fin 128 => V3 m ρ c main_v26 (ix2 0 k)) = fun k => (m ((c.tc : Thread nD τ).loc main_arg8)) (ix1 k) := by
  funext k
  show StableHlo.after hostOps1 (W2 m ρ c) (Proc.devRef .tc main_v26) (ix2 0 k) = _
  after_results
  rw [w2_arg8]
  exact row_of_vector _ _ k

/-- The transposed weights at (k, q) are the weights at (q, k). -/
theorem weights : (fun q k : Fin 128 => V3 m ρ c main_v27 (ix2 k q)) = fun q k => (m ((c.tc : Thread nD τ).loc main_arg4)) (ix2 q k) := by
  funext q k
  show StableHlo.after hostOps1 (W2 m ρ c) (Proc.devRef .tc main_v27) (ix2 k q) = _
  after_results
  rw [w2_arg4]
  exact transpose_ix2_apply _ _ k q

/-- The two mixing weights, as the one-by-one arrays the region reads. -/
theorem mix_alpha : V3 m ρ c main_v28 (ix2 0 0) = (m ((c.tc : Thread nD τ).loc main_arg5)) ix0 := by
  show StableHlo.after hostOps1 (W2 m ρ c) (Proc.devRef .tc main_v28) (ix2 0 0) = _
  after_results
  rw [w2_arg5]
  exact cell_of_scalar _ _ _

theorem mix_beta : V3 m ρ c main_v29 (ix2 0 0) = (m ((c.tc : Thread nD τ).loc main_arg6)) ix0 := by
  show StableHlo.after hostOps1 (W2 m ρ c) (Proc.devRef .tc main_v29) (ix2 0 0) = _
  after_results
  rw [w2_arg6]
  exact cell_of_scalar _ _ _

/-! ## The result buffer -/

/-- After @main the kernel's result buffer holds the reference's term of the same arguments. -/
theorem result_eq : W4 m ρ c (Proc.devRef .tc main_v30)
    = Cert.ReferenceIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 8).trans ?_
  rw [Cert.KernelIdeal.NodeValue.node_final (V3 m ρ) c, Cert.ReferenceIdeal.RefValue.node_ref, gathered_sum, node_degree, initial_features, norm_scale, norm_shift,
    weights, mix_alpha, mix_beta]

end Cert.Bridge

end
-- ==== Proof.lean ====
/-
  A hypergraph message-passing layer in two dense kernels against its plain reference, over the extended reals.

  Both programs gather the rows of X at the vertex indices, scatter-add them and a column of ones over the edge
  indices, form the edge features (sum over count, at least one, times the edge degree weight), gather those at the
  edge indices, scatter-add over the vertex indices, scale by the node degree weight, double, layer-normalize each
  row, mix with the initial features by α, and mix that row by β with its product against the transposed weights.
  The kernel program computes the edge features and everything after the last scatter-add in two pipelined
  kernels over row blocks (1000 edges, 2000 nodes a block); the irregular gathers and scatter-adds are the same
  host operations in both programs. At the ideal values a change of float format is the identity and a sum does
  not depend on its order, so every block of each kernel's output is the same function of the same rows as the
  reference's whole-array operations: the two results are equal entry by entry. The precondition is not used.

  The three frames are the generated ones (the reference's is its generated run with the result dropped); the
  idealization rewrote nothing, so there is nothing to preserve.
-/
import proofs.«159754_j67688684585239_1_alg».proof.Defs
import proofs.«159754_j67688684585239_1_alg».proof.Proof.Gen.Kernel
import proofs.«159754_j67688684585239_1_alg».proof.Proof.Gen.Kernel.Frame
import proofs.«159754_j67688684585239_1_alg».proof.Proof.Gen.KernelIdeal
import proofs.«159754_j67688684585239_1_alg».proof.Proof.Gen.KernelIdeal.Frame
import proofs.«159754_j67688684585239_1_alg».proof.Proof.Gen.ReferenceIdeal
import proofs.«159754_j67688684585239_1_alg».proof.Proof.Gen.Pre_finite_inputs
import proofs.«159754_j67688684585239_1_alg».proof.Proof.Gen.ReferenceIdeal.Run
import proofs.«159754_j67688684585239_1_alg».proof.Proof.Gen.ReferenceIdeal.Read
import proofs.«159754_j67688684585239_1_alg».proof.Proof.KernelIdealRun
import proofs.«159754_j67688684585239_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs run, the kernel program's result buffer ending at
    the last boundary's contents and the reference's at its composed term; the first IS the second, read at
    the kernel's arguments. -/
theorem algebraic : Cert.algebraic_KernelIdeal_ReferenceIdeal := by
  intro m ρ m' ρ' _ hagree
  refine ⟨fun c => Cert.KernelIdeal.Gen.W4 m ρ c (Proc.devRef .tc Cert.KernelIdeal.main_v30),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq]
  obtain ⟨h0, h1, h2, h3, h4, h5, h6, h7, h8, h9, h10⟩ := hagree c
  rw [h0, h1, h2, h3, h4, h5, h6, h7, h8, h9, h10]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
